-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v19)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v19) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v28) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x2048x2048x2 : Shape := ⟨4, ![8, 2048, 2048, 2]⟩
abbrev S1024 : Shape := ⟨1, ![1024]⟩
abbrev S_ : Shape := ⟨0, ![]⟩

class Facts : Prop where
  bcast_S_S8x2048x2048x2 : S_.BroadcastsInDim S8x2048x2048x2 (![] : Fin 0 → Fin S8x2048x2048x2.rank)
  reducesTo_S8x2048x2048x2_S_d0_1_2_3 : S8x2048x2048x2.ReducesTo [0, 1, 2, 3] S_
  h_S_ : 0 < S_.numel
  bcast_S_S1024 : S_.BroadcastsInDim S1024 (![] : Fin 0 → Fin S1024.rank)
  reducesTo_S1024_S_d0 : S1024.ReducesTo [0] S_

variable [Facts]

def fn {F : FTy → Type} [FloatOps F] (main_arg0 : FVec F S8x2048x2048x2 .f32) (main_arg1 : FVec F S1024 .f32) : IVec S_ 1 :=
  let main_v0 : FVec F S8x2048x2048x2 .f32 := Host.absf main_arg0
  let main_cst : FVec F S_ .f32 := constant S_ .f32 0x7F800000#32
  let main_v1 : FVec F S8x2048x2048x2 .f32 := broadcastInDim S8x2048x2048x2 ![] bcast_S_S8x2048x2048x2 main_cst
  let main_v2 : IVec S8x2048x2048x2 1 := cmpf .olt main_v0 main_v1
  let main_c : IVec S_ 1 := constantI S_ 1 1#1
  let main_v3 : IVec S_ 1 := (fun x v => Host.reduce IntOp.andi x v reducesTo_S8x2048x2048x2_S_d0_1_2_3 h_S_) main_v2 main_c
  let main_v4 : FVec F S1024 .f32 := Host.absf main_arg1
  let main_cst_0 : FVec F S_ .f32 := constant S_ .f32 0x7F800000#32
  let main_v5 : FVec F S1024 .f32 := broadcastInDim S1024 ![] bcast_S_S1024 main_cst_0
  let main_v6 : IVec S1024 1 := cmpf .olt main_v4 main_v5
  let main_c_1 : IVec S_ 1 := constantI S_ 1 1#1
  let main_v7 : IVec S_ 1 := (fun x v => Host.reduce IntOp.andi x v reducesTo_S1024_S_d0 h_S_) main_v6 main_c_1
  let main_v8 : IVec S_ 1 := andi main_v3 main_v7
  main_v8
-- ==== Kernel.lean ====
abbrev S8x2048x2048x2 : Shape := ⟨4, ![8, 2048, 2048, 2]⟩
abbrev S1024 : Shape := ⟨1, ![1024]⟩
abbrev S4 : Shape := ⟨1, ![4]⟩
abbrev S1024x4 : Shape := ⟨2, ![1024, 4]⟩
abbrev S4096 : Shape := ⟨1, ![4096]⟩
abbrev S1x4 : Shape := ⟨2, ![1, 4]⟩
abbrev S16384x4096 : Shape := ⟨2, ![16384, 4096]⟩
abbrev S1x4096 : Shape := ⟨2, ![1, 4096]⟩
abbrev S256x4096 : Shape := ⟨2, ![256, 4096]⟩

abbrev nBuf : Space → Nat
  | .hbm => 24
  | .vmem => 7
  | .smem => 0
  | _ => 0

abbrev bufTy : (tb : Table) → Fin (tcTables nBuf tb) → BufTy
  | .hbm, ⟨0, _⟩ => ⟨S8x2048x2048x2, .f32⟩
  | .hbm, ⟨1, _⟩ => ⟨S1024, .f32⟩
  | .hbm, ⟨2, _⟩ => ⟨S4, .f32⟩
  | .hbm, ⟨3, _⟩ => ⟨S4, .f32⟩
  | .hbm, ⟨4, _⟩ => ⟨S1024, .f32⟩
  | .hbm, ⟨5, _⟩ => ⟨S1024, .f32⟩
  | .hbm, ⟨6, _⟩ => ⟨S1024x4, .f32⟩
  | .hbm, ⟨7, _⟩ => ⟨S4096, .f32⟩
  | .hbm, ⟨8, _⟩ => ⟨S1024x4, .f32⟩
  | .hbm, ⟨9, _⟩ => ⟨S4096, .f32⟩
  | .hbm, ⟨10, _⟩ => ⟨S1x4, .f32⟩
  | .hbm, ⟨11, _⟩ => ⟨S1024x4, .f32⟩
  | .hbm, ⟨12, _⟩ => ⟨S4096, .f32⟩
  | .hbm, ⟨13, _⟩ => ⟨S4096, .f32⟩
  | .hbm, ⟨14, _⟩ => ⟨S1x4, .f32⟩
  | .hbm, ⟨15, _⟩ => ⟨S1024x4, .f32⟩
  | .hbm, ⟨16, _⟩ => ⟨S4096, .f32⟩
  | .hbm, ⟨17, _⟩ => ⟨S4096, .f32⟩
  | .hbm, ⟨18, _⟩ => ⟨S16384x4096, .f32⟩
  | .hbm, ⟨19, _⟩ => ⟨S1x4096, .f32⟩
  | .hbm, ⟨20, _⟩ => ⟨S1x4096, .f32⟩
  | .hbm, ⟨21, _⟩ => ⟨S1x4096, .f32⟩
  | .hbm, ⟨22, _⟩ => ⟨S16384x4096, .f32⟩
  | .hbm, ⟨23, _⟩ => ⟨S8x2048x2048x2, .f32⟩
  | .local _ .vmem, ⟨0, _⟩ => ⟨S256x4096, .f32⟩
  | .local _ .vmem, ⟨1, _⟩ => ⟨S256x4096, .f32⟩
  | .local _ .vmem, ⟨2, _⟩ => ⟨S1x4096, .f32⟩
  | .local _ .vmem, ⟨3, _⟩ => ⟨S1x4096, .f32⟩
  | .local _ .vmem, ⟨4, _⟩ => ⟨S1x4096, .f32⟩
  | .local _ .vmem, ⟨5, _⟩ => ⟨S256x4096, .f32⟩
  | .local _ .vmem, ⟨6, _⟩ => ⟨S256x4096, .f32⟩
  | _, _ => ⟨S8x2048x2048x2, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_cst_0 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x4096 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x4096 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x4096 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  bcast_S1024_S1024x4_0 : S1024.BroadcastsInDim S1024x4 (![0] : Fin 1 → Fin S1024x4.rank)
  shapeCasts_S1024x4_S4096 : S1024x4.ShapeCasts S4096
  shapeCasts_S4_S1x4 : S4.ShapeCasts S1x4
  bcast_S1x4_S1024x4_0_1 : S1x4.BroadcastsInDim S1024x4 (![0, 1] : Fin 2 → Fin S1024x4.rank)
  shapeCasts_S8x2048x2048x2_S16384x4096 : S8x2048x2048x2.ShapeCasts S16384x4096
  shapeCasts_S4096_S1x4096 : S4096.ShapeCasts S1x4096
  inb_S256x4096_S256x4096_0_0 : ∀ a, (![0, 0] : Fin 2 → Nat) a + S256x4096.size a ≤ S256x4096.size a
  h_S256x4096 : 0 < S256x4096.numel
  shapeCasts_S256x4096_S256x4096 : S256x4096.ShapeCasts S256x4096
  rotates_S256x4096_d1 : S256x4096.Rotates 1 none
  inb_S1x4096_S1x4096_0_0 : ∀ a, (![0, 0] : Fin 2 → Nat) a + S1x4096.size a ≤ S1x4096.size a
  h_S1x4096 : 0 < S1x4096.numel
  shapeCasts_S1x4096_S1x4096 : S1x4096.ShapeCasts S1x4096
  broadcasts_S1x4096_S256x4096 : S1x4096.Broadcasts S256x4096
  shapeCasts_S16384x4096_S8x2048x2048x2 : S16384x4096.ShapeCasts S8x2048x2048x2
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x4096.size a ≤ S16384x4096.size a
  hwx0_0 : ∀ i : grid0.Coords, EltTy.bits .f32 = 32 ∨ (Rect.block (s := S16384x4096) S256x4096.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x4096.size a ≤ S1x4096.size a
  hwx0_1 : ∀ i : grid0.Coords, EltTy.bits .f32 = 32 ∨ (Rect.block (s := S1x4096) S1x4096.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x4096.size a ≤ S1x4096.size a
  hwx0_2 : ∀ i : grid0.Coords, EltTy.bits .f32 = 32 ∨ (Rect.block (s := S1x4096) S1x4096.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x4096.size a ≤ S1x4096.size a
  hwx0_3 : ∀ i : grid0.Coords, EltTy.bits .f32 = 32 ∨ (Rect.block (s := S1x4096) S1x4096.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S256x4096.size a ≤ S16384x4096.size a
  hwx0_4 : ∀ i : grid0.Coords, EltTy.bits .f32 = 32 ∨ (Rect.block (s := S16384x4096) S256x4096.size (cc0_transform_4 i) (hinb0_4 i)).WholeWords (EltTy.packing .f32)

variable [Facts₀]

abbrev win0_0 : Pipeline.Window sig grid0 :=
  Pipeline.Window.ofSpec (Memref.whole main_v14) S256x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v15) S1x4096.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v16) S1x4096.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v17) S1x4096.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v18) S256x4096.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where
  halias0_4 : Pipeline.Aliased win0 0 4

variable [Facts]
-- ==== ReferenceIdeal.lean ====
abbrev S8x2048x2048x2 : Shape := ⟨4, ![8, 2048, 2048, 2]⟩
abbrev S1024 : Shape := ⟨1, ![1024]⟩
abbrev S8x2048x1024x2x2 : Shape := ⟨5, ![8, 2048, 1024, 2, 2]⟩
abbrev S8x2048x1024x1x2 : Shape := ⟨5, ![8, 2048, 1024, 1, 2]⟩
abbrev S8x2048x1024x2 : Shape := ⟨4, ![8, 2048, 1024, 2]⟩
abbrev S1024x1 : Shape := ⟨2, ![1024, 1]⟩
abbrev S1x1x1024x1 : Shape := ⟨4, ![1, 1, 1024, 1]⟩
abbrev S8x2048x0x2 : Shape := ⟨4, ![8, 2048, 0, 2]⟩

abbrev nBuf : Space → Nat
  | .hbm => 31
  | .vmem => 0
  | .smem => 0
  | _ => 0

abbrev bufTy : (tb : Table) → Fin (tcTables nBuf tb) → BufTy
  | .hbm, ⟨0, _⟩ => ⟨S8x2048x2048x2, .f32⟩
  | .hbm, ⟨1, _⟩ => ⟨S1024, .f32⟩
  | .hbm, ⟨2, _⟩ => ⟨S1024, .f32⟩
  | .hbm, ⟨3, _⟩ => ⟨S1024, .f32⟩
  | .hbm, ⟨4, _⟩ => ⟨S8x2048x1024x2x2, .f32⟩
  | .hbm, ⟨5, _⟩ => ⟨S8x2048x1024x1x2, .f32⟩
  | .hbm, ⟨6, _⟩ => ⟨S8x2048x1024x2, .f32⟩
  | .hbm, ⟨7, _⟩ => ⟨S8x2048x1024x1x2, .f32⟩
  | .hbm, ⟨8, _⟩ => ⟨S8x2048x1024x2, .f32⟩
  | .hbm, ⟨9, _⟩ => ⟨S1024x1, .f32⟩
  | .hbm, ⟨10, _⟩ => ⟨S1024x1, .f32⟩
  | .hbm, ⟨11, _⟩ => ⟨S1x1x1024x1, .f32⟩
  | .hbm, ⟨12, _⟩ => ⟨S8x2048x1024x2, .f32⟩
  | .hbm, ⟨13, _⟩ => ⟨S8x2048x1024x2, .f32⟩
  | .hbm, ⟨14, _⟩ => ⟨S1x1x1024x1, .f32⟩
  | .hbm, ⟨15, _⟩ => ⟨S8x2048x1024x2, .f32⟩
  | .hbm, ⟨16, _⟩ => ⟨S8x2048x1024x2, .f32⟩
  | .hbm, ⟨17, _⟩ => ⟨S8x2048x1024x2, .f32⟩
  | .hbm, ⟨18, _⟩ => ⟨S1x1x1024x1, .f32⟩
  | .hbm, ⟨19, _⟩ => ⟨S8x2048x1024x2, .f32⟩
  | .hbm, ⟨20, _⟩ => ⟨S8x2048x1024x2, .f32⟩
  | .hbm, ⟨21, _⟩ => ⟨S1x1x1024x1, .f32⟩
  | .hbm, ⟨22, _⟩ => ⟨S8x2048x1024x2, .f32⟩
  | .hbm, ⟨23, _⟩ => ⟨S8x2048x1024x2, .f32⟩
  | .hbm, ⟨24, _⟩ => ⟨S8x2048x1024x2, .f32⟩
  | .hbm, ⟨25, _⟩ => ⟨S8x2048x1024x1x2, .f32⟩
  | .hbm, ⟨26, _⟩ => ⟨S8x2048x1024x1x2, .f32⟩
  | .hbm, ⟨27, _⟩ => ⟨S8x2048x1024x2x2, .f32⟩
  | .hbm, ⟨28, _⟩ => ⟨S8x2048x2048x2, .f32⟩
  | .hbm, ⟨29, _⟩ => ⟨S8x2048x0x2, .f32⟩
  | .hbm, ⟨30, _⟩ => ⟨S8x2048x2048x2, .f32⟩
  | _, _ => ⟨S8x2048x2048x2, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_v13 : Ref sig .tc := ⟨.hbm, 15, rfl⟩
abbrev main_v14 : Ref sig .tc := ⟨.hbm, 16, rfl⟩
abbrev main_v15 : Ref sig .tc := ⟨.hbm, 17, rfl⟩
abbrev main_v16 : Ref sig .tc := ⟨.hbm, 18, rfl⟩
abbrev main_v17 : Ref sig .tc := ⟨.hbm, 19, rfl⟩
abbrev main_v18 : Ref sig .tc := ⟨.hbm, 20, rfl⟩
abbrev main_v19 : Ref sig .tc := ⟨.hbm, 21, rfl⟩
abbrev main_v20 : Ref sig .tc := ⟨.hbm, 22, rfl⟩
abbrev main_v21 : Ref sig .tc := ⟨.hbm, 23, rfl⟩
abbrev main_v22 : Ref sig .tc := ⟨.hbm, 24, rfl⟩
abbrev main_v23 : Ref sig .tc := ⟨.hbm, 25, rfl⟩
abbrev main_v24 : Ref sig .tc := ⟨.hbm, 26, rfl⟩
abbrev main_v25 : Ref sig .tc := ⟨.hbm, 27, rfl⟩
abbrev main_v26 : Ref sig .tc := ⟨.hbm, 28, rfl⟩
abbrev main_v27 : Ref sig .tc := ⟨.hbm, 29, rfl⟩
abbrev main_v28 : Ref sig .tc := ⟨.hbm, 30, rfl⟩

abbrev nD : Nat := 1
abbrev τ : Topo := Topo.v7x

variable {F : FTy → Type} [FloatOps F]

class Facts₀ : Prop where
  shapeCasts_S8x2048x2048x2_S8x2048x1024x2x2 : S8x2048x2048x2.ShapeCasts S8x2048x1024x2x2
  slices_S8x2048x1024x2x2_S8x2048x1024x1x2_0_0_0_0_0 : S8x2048x1024x2x2.Slices ![0, 0, 0, 0, 0] S8x2048x1024x1x2
  shapeCasts_S8x2048x1024x1x2_S8x2048x1024x2 : S8x2048x1024x1x2.ShapeCasts S8x2048x1024x2
  slices_S8x2048x1024x2x2_S8x2048x1024x1x2_0_0_0_1_0 : S8x2048x1024x2x2.Slices ![0, 0, 0, 1, 0] S8x2048x1024x1x2
  bcast_S1024_S1024x1_0 : S1024.BroadcastsInDim S1024x1 (![0] : Fin 1 → Fin S1024x1.rank)
  bcast_S1024x1_S1x1x1024x1_2_3 : S1024x1.BroadcastsInDim S1x1x1024x1 (![2, 3] : Fin 2 → Fin S1x1x1024x1.rank)
  bcast_S1x1x1024x1_S8x2048x1024x2_0_1_2_3 : S1x1x1024x1.BroadcastsInDim S8x2048x1024x2 (![0, 1, 2, 3] : Fin 4 → Fin S8x2048x1024x2.rank)
  bcast_S8x2048x1024x2_S8x2048x1024x1x2_0_1_2_4 : S8x2048x1024x2.BroadcastsInDim S8x2048x1024x1x2 (![0, 1, 2, 4] : Fin 4 → Fin S8x2048x1024x1x2.rank)
  concatenates_S8x2048x1024x1x2_S8x2048x1024x1x2_S8x2048x1024x2x2_d3 : Shape.Concatenates [S8x2048x1024x1x2, S8x2048x1024x1x2] S8x2048x1024x2x2 3
  shapeCasts_S8x2048x1024x2x2_S8x2048x2048x2 : S8x2048x1024x2x2.ShapeCasts S8x2048x2048x2
  slices_S8x2048x2048x2_S8x2048x0x2_0_0_2048_0 : S8x2048x2048x2.Slices ![0, 0, 2048, 0] S8x2048x0x2
  concatenates_S8x2048x2048x2_S8x2048x0x2_S8x2048x2048x2_d2 : Shape.Concatenates [S8x2048x2048x2, S8x2048x0x2] S8x2048x2048x2 2

variable [Facts₀]

class Facts : Prop extends Facts₀ where

variable [Facts]
-- ==== Proof.Rotation.lean ====
/-
  The mathematics of the rotation, with no program in sight.

  The array has shape [8, 2048, 2048, 2]; its third axis is the channel axis. Channels come in adjacent pairs
  (2r, 2r+1), and pair r is turned by the angle whose cosine and sine are entry r of two given vectors:
      out[2r]   = x[2r]   * cos r - x[2r+1] * sin r
      out[2r+1] = x[2r]   * sin r + x[2r+1] * cos r
  the same on every leading index and on both entries of the last axis. `rot` is that array, index by index.

  The second half is the pointwise identity on the extended reals that lets a three-term sum with coefficients
  -1, 0 and 1 times the sine stand for the two lines above: a product with zero vanishes, a product with one is
  the factor, a product with minus one is the negation — all three hold on the extended reals at every value,
  infinite ones included, so no finiteness is used.
-/
import Idealize.ShloMosaic.PureOps.Ideal
import Idealize.ShloMosaic.PureOps.Ideal.Laws
import Idealize.ShloMosaic.Lib.IdealHost
import Idealize.ShloMosaic.Lib.ValueIdx

noncomputable section

namespace Cert.Rotation

open Idealize.ShloMosaic Idealize.ShloMosaic.ValueIdx

abbrev SX : Shape := ⟨4, ![8, 2048, 2048, 2]⟩
abbrev SA : Shape := ⟨1, ![1024]⟩

/-- The pair a channel belongs to. -/
def pairOf (i : SX.Idx) : SA.Idx :=
  ix1 (⟨(i 2).val / 2, by have h : (i 2).val < 2048 := (i 2).isLt; omega⟩ : Fin 1024)

/-- The same index one channel up (around the end, which no even channel reaches). -/
def chanUp (i : SX.Idx) : SX.Idx :=
  ix4 (i 0) (i 1) (⟨((i 2).val + 1) % 2048, Nat.mod_lt _ (by decide)⟩ : Fin 2048) (i 3)

/-- The same index one channel down (around the start, which no odd channel reaches). -/
def chanDown (i : SX.Idx) : SX.Idx :=
  ix4 (i 0) (i 1) (⟨((i 2).val + 2047) % 2048, Nat.mod_lt _ (by decide)⟩ : Fin 2048) (i 3)

/-- The rotated array: each adjacent channel pair turned by its angle. -/
def rot (x : SX.Idx → EReal) (cs sn : SA.Idx → EReal) : SX.Idx → EReal := fun i =>
  if (i 2).val % 2 = 0 then x i * cs (pairOf i) - x (chanUp i) * sn (pairOf i)
  else x (chanDown i) * sn (pairOf i) + x i * cs (pairOf i)

/-- Member `par` of pair `r`, as a channel: `2 r + par`. -/
def chan (r : Fin 1024) (par : Fin 2) : Fin 2048 :=
  ⟨2 * r.val + par.val, by have := r.isLt; have := par.isLt; omega⟩

/-- Every channel is a member of a pair. -/
theorem chan_surj (d : Fin 2048) : ∃ (r : Fin 1024) (par : Fin 2), d = chan r par :=
  ⟨⟨d.val / 2, by have := d.isLt; omega⟩, ⟨d.val % 2, Nat.mod_lt _ (by decide)⟩,
    Fin.ext (by show d.val = 2 * (d.val / 2) + d.val % 2; omega)⟩

/-- The rotation on the even member of pair `r`. -/
theorem rot_even (x : SX.Idx → EReal) (cs sn : SA.Idx → EReal) (b : Fin 8) (s : Fin 2048) (r : Fin 1024) (ri : Fin 2) :
    rot x cs sn (ix4 b s (chan r 0) ri)
      = x (ix4 b s (chan r 0) ri) * cs (ix1 r) - x (ix4 b s (chan r 1) ri) * sn (ix1 r) := by
  have hr : r.val < 1024 := r.isLt
  have hc : ((ix4 b s (chan r 0) ri : SX.Idx) 2).val % 2 = 0 := by show (2 * r.val + 0) % 2 = 0; omega
  have hp : pairOf (ix4 b s (chan r 0) ri) = ix1 r :=
    congrArg ix1 (Fin.ext (by show (2 * r.val + 0) / 2 = r.val; omega))
  have hu : chanUp (ix4 b s (chan r 0) ri) = ix4 b s (chan r 1) ri :=
    congrArg (fun z => ix4 b s z ri) (Fin.ext (by show (2 * r.val + 0 + 1) % 2048 = 2 * r.val + 1; omega))
  unfold rot
  exact (if_pos hc).trans (by rw [hp, hu])

/-- The rotation on the odd member of pair `r`. -/
theorem rot_odd (x : SX.Idx → EReal) (cs sn : SA.Idx → EReal) (b : Fin 8) (s : Fin 2048) (r : Fin 1024) (ri : Fin 2) :
    rot x cs sn (ix4 b s (chan r 1) ri)
      = x (ix4 b s (chan r 0) ri) * sn (ix1 r) + x (ix4 b s (chan r 1) ri) * cs (ix1 r) := by
  have hr : r.val < 1024 := r.isLt
  have hc : ¬ ((ix4 b s (chan r 1) ri : SX.Idx) 2).val % 2 = 0 := by show ¬ (2 * r.val + 1) % 2 = 0; omega
  have hp : pairOf (ix4 b s (chan r 1) ri) = ix1 r :=
    congrArg ix1 (Fin.ext (by show (2 * r.val + 1) / 2 = r.val; omega))
  have hd : chanDown (ix4 b s (chan r 1) ri) = ix4 b s (chan r 0) ri :=
    congrArg (fun z => ix4 b s z ri) (Fin.ext (by show (2 * r.val + 1 + 2047) % 2048 = 2 * r.val + 0; omega))
  unfold rot
  exact (if_neg hc).trans (by rw [hp, hd])

/-- The f32 pattern `0xBF800000` is minus one. -/
theorem ofBits_neg_one_f32 : Ideal.ofBits .f32 0xBF800000#32 = -1 := by
  simp [Ideal.ofBits, Ideal.ieee, -EReal.coe_mul]; norm_num

/-- On an even channel: the term through the pattern -1 is the subtracted product, the term through the
    pattern 0 vanishes whatever it multiplies. -/
theorem even_form (a b y c s : EReal) :
    a * c + b * (Ideal.ofBits .f32 0xBF800000#32 * s) + y * (Ideal.ofBits .f32 0x00000000#32 * s) = a * c - b * s := by
  rw [ofBits_neg_one_f32, Ideal.ofBits_zero_f32, zero_mul, mul_zero, add_zero, neg_one_mul, mul_neg, sub_eq_add_neg]

/-- On an odd channel: the term through the pattern 0 vanishes, the term through the pattern 1 is the added
    product. -/
theorem odd_form (a b y c s : EReal) :
    b * c + y * (Ideal.ofBits .f32 0x00000000#32 * s) + a * (Ideal.ofBits .f32 0x3F800000#32 * s) = a * s + b * c := by
  rw [Ideal.ofBits_zero_f32, Ideal.ofBits_one_f32, zero_mul, mul_zero, add_zero, one_mul, add_comm]

end Cert.Rotation

end
-- ==== Proof.RefValue.lean ====
/-
  The reference computes the rotation: its last stage, read index by index, is `Cert.Rotation.rot` of the
  argument array and of the host cosine and sine of the angles.

  The reference splits the channel axis 2048 into 1024 pairs × 2, takes the even and the odd member of each pair
  as two arrays of shape [8, 2048, 1024, 2], forms  a·cos − b·sin  and  a·sin + b·cos  against the angles broadcast
  along every other axis, stacks the two along a new pair axis, and folds the pair axis back into the channel axis;
  the closing concatenation appends an empty tail. Every layout step is a bijection of row-major positions, so each
  lemma below names the operand index of one step at explicit coordinates and settles the arithmetic once.
-/
import proofs.«407569_j21096879358600_3_alg».proof.Proof.Gen.ReferenceIdeal.Read
import proofs.«407569_j21096879358600_3_alg».proof.Proof.Rotation
import Idealize.ShloMosaic.Lib.Pipeline.Value
import Idealize.ShloMosaic.Lib.ValueIdx

noncomputable section

namespace Cert.ReferenceIdeal.RefValue

open Cert.ReferenceIdeal Cert.ReferenceIdeal.Gen Cert.ReferenceIdeal.Read Cert.Rotation
open Idealize.ShloMosaic Idealize.ShloMosaic.ValueIdx

variable (b : Fin 8) (s : Fin 2048) (r : Fin 1024) (ri : Fin 2)

/-! ## One layout step at explicit coordinates -/

/-- Folding the pair axis back: channel `2 r + par` is member `par` of pair `r`. -/
theorem fold_at (par : Fin 2) : idx_main_v26 (ix4 b s (chan r par) ri) = ix5 b s r par ri := by
  have hb : b.val < 8 := b.isLt; have hs : s.val < 2048 := s.isLt; have hr : r.val < 1024 := r.isLt; have hp : par.val < 2 := par.isLt; have hri : ri.val < 2 := ri.isLt
  funext a
  match a with
  | ⟨0, _⟩ => exact Fin.ext (by show (((b.val * 2048 + s.val) * 2048 + (2 * r.val + par.val)) * 2 + ri.val) / 8388608 = b.val; omega)
  | ⟨1, _⟩ => exact Fin.ext (by show (((b.val * 2048 + s.val) * 2048 + (2 * r.val + par.val)) * 2 + ri.val) / 4096 % 2048 = s.val; omega)
  | ⟨2, _⟩ => exact Fin.ext (by show (((b.val * 2048 + s.val) * 2048 + (2 * r.val + par.val)) * 2 + ri.val) / 4 % 1024 = r.val; omega)
  | ⟨3, _⟩ => exact Fin.ext (by show (((b.val * 2048 + s.val) * 2048 + (2 * r.val + par.val)) * 2 + ri.val) / 2 % 2 = par.val; omega)
  | ⟨4, _⟩ => exact Fin.ext (by show (((b.val * 2048 + s.val) * 2048 + (2 * r.val + par.val)) * 2 + ri.val) % 2 = ri.val; omega)

/-- A stacked result read at the unit pair axis is the result itself. -/
theorem stack_at : idx_main_v23 (ix5 b s r (0 : Fin 1) ri) = ix4 b s r ri := by
  funext a
  match a with
  | ⟨0, _⟩ => rfl
  | ⟨1, _⟩ => rfl
  | ⟨2, _⟩ => rfl
  | ⟨3, _⟩ => rfl

theorem stack_at' : idx_main_v24 (ix5 b s r (0 : Fin 1) ri) = ix4 b s r ri := stack_at b s r ri

/-- Dropping the unit pair axis of a member array. -/
theorem member_at : idx_main_v4 (ix4 b s r ri) = ix5 b s r (0 : Fin 1) ri := by
  have hb : b.val < 8 := b.isLt; have hs : s.val < 2048 := s.isLt; have hr : r.val < 1024 := r.isLt; have hri : ri.val < 2 := ri.isLt
  funext a
  match a with
  | ⟨0, _⟩ => exact Fin.ext (by show (((b.val * 2048 + s.val) * 1024 + r.val) * 2 + ri.val) / 4194304 = b.val; omega)
  | ⟨1, _⟩ => exact Fin.ext (by show (((b.val * 2048 + s.val) * 1024 + r.val) * 2 + ri.val) / 2048 % 2048 = s.val; omega)
  | ⟨2, _⟩ => exact Fin.ext (by show (((b.val * 2048 + s.val) * 1024 + r.val) * 2 + ri.val) / 2 % 1024 = r.val; omega)
  | ⟨3, _⟩ => rfl
  | ⟨4, _⟩ => exact Fin.ext (by show (((b.val * 2048 + s.val) * 1024 + r.val) * 2 + ri.val) % 2 = ri.val; omega)

theorem member_at' : idx_main_v6 (ix4 b s r ri) = ix5 b s r (0 : Fin 1) ri := member_at b s r ri

/-- The even member of a pair. -/
theorem even_at : idx_main_v3 (ix5 b s r (0 : Fin 1) ri) = ix5 b s r (0 : Fin 2) ri := by
  funext a
  match a with
  | ⟨0, _⟩ => rfl
  | ⟨1, _⟩ => rfl
  | ⟨2, _⟩ => rfl
  | ⟨3, _⟩ => rfl
  | ⟨4, _⟩ => rfl

/-- The odd member of a pair. -/
theorem odd_at : idx_main_v5 (ix5 b s r (0 : Fin 1) ri) = ix5 b s r (1 : Fin 2) ri := by
  funext a
  match a with
  | ⟨0, _⟩ => rfl
  | ⟨1, _⟩ => rfl
  | ⟨2, _⟩ => rfl
  | ⟨3, _⟩ => rfl
  | ⟨4, _⟩ => rfl

/-- Splitting the channel axis: member `par` of pair `r` is channel `2 r + par`. -/
theorem split_at (par : Fin 2) : idx_main_v2 (ix5 b s r par ri) = ix4 b s (chan r par) ri := by
  have hb : b.val < 8 := b.isLt; have hs : s.val < 2048 := s.isLt; have hr : r.val < 1024 := r.isLt; have hp : par.val < 2 := par.isLt; have hri : ri.val < 2 := ri.isLt
  funext a
  match a with
  | ⟨0, _⟩ => exact Fin.ext (by show ((((b.val * 2048 + s.val) * 1024 + r.val) * 2 + par.val) * 2 + ri.val) / 8388608 = b.val; omega)
  | ⟨1, _⟩ => exact Fin.ext (by show ((((b.val * 2048 + s.val) * 1024 + r.val) * 2 + par.val) * 2 + ri.val) / 4096 % 2048 = s.val; omega)
  | ⟨2, _⟩ => exact Fin.ext (by show ((((b.val * 2048 + s.val) * 1024 + r.val) * 2 + par.val) * 2 + ri.val) / 2 % 2048 = 2 * r.val + par.val; omega)
  | ⟨3, _⟩ => exact Fin.ext (by show ((((b.val * 2048 + s.val) * 1024 + r.val) * 2 + par.val) * 2 + ri.val) % 2 = ri.val; omega)

/-- The angle vectors broadcast along every other axis: entry `r`, at each of the four places they are used. -/
theorem cos_at : idx_main_v7 (idx_main_v9 (idx_main_v10 (ix4 b s r ri))) = ix1 r := by
  funext a
  match a with
  | ⟨0, _⟩ => rfl
theorem sin_at : idx_main_v8 (idx_main_v12 (idx_main_v13 (ix4 b s r ri))) = ix1 r := by
  funext a
  match a with
  | ⟨0, _⟩ => rfl
theorem sin_at' : idx_main_v8 (idx_main_v16 (idx_main_v17 (ix4 b s r ri))) = ix1 r := by
  funext a
  match a with
  | ⟨0, _⟩ => rfl
theorem cos_at' : idx_main_v7 (idx_main_v19 (idx_main_v20 (ix4 b s r ri))) = ix1 r := by
  funext a
  match a with
  | ⟨0, _⟩ => rfl

/-! ## The reference's result is the rotation -/

/-- Index by index: the closing concatenation reads its first piece (the tail is empty), the fold sends channel
    `2 r + par` to member `par` of pair `r`, the stack reads the even line for `par = 0` and the odd line for
    `par = 1`, and each line's factors are the argument at the pair's two channels and the angle vectors at `r`. -/
theorem ref_eq (x : (⟨S8x2048x2048x2, .f32⟩ : BufTy).Contents (Elt Ideal)) (a : (⟨S1024, .f32⟩ : BufTy).Contents (Elt Ideal)) :
    val_main_v28 (F := Ideal) x a = rot x (Host.cos (F := Ideal) (φ := .f32) a) (Host.sin (F := Ideal) (φ := .f32) a) := by
  funext i
  obtain ⟨b, s, d, ri, rfl⟩ : ∃ (b : Fin 8) (s : Fin 2048) (d : Fin 2048) (ri : Fin 2), i = ix4 b s d ri :=
    ⟨i 0, i 1, i 2, i 3, eq_ix4 i⟩
  obtain ⟨r, par, rfl⟩ := chan_surj d
  unfold val_main_v28
  refine (concatenate_pair_apply_left (2 : Fin 4) _ _ _ (ix4 b s (chan r par) ri) rfl (ix4 b s (chan r par) ri) (fun _ => rfl)).trans ?_
  rw [val_main_v26_apply, fold_at]
  unfold val_main_v25
  by_cases hpar : par.val = 0
  · have hp0 : par = (0 : Fin 2) := Fin.ext hpar
    subst hp0
    refine (concatenate_pair_apply_left (t := S8x2048x1024x2x2) (s₁ := S8x2048x1024x1x2) (s₂ := S8x2048x1024x1x2) (3 : Fin 5) _ _ _ (ix5 b s r (0 : Fin 2) ri) rfl (ix5 b s r (0 : Fin 1) ri) (fun b' => match b' with
      | ⟨0, _⟩ => rfl | ⟨1, _⟩ => rfl | ⟨2, _⟩ => rfl | ⟨3, _⟩ => rfl | ⟨4, _⟩ => rfl)).trans ?_
    rw [val_main_v23_apply, stack_at, val_main_v15_apply, val_main_v11_apply, val_main_v14_apply,
      val_main_v4_apply, member_at, val_main_v3_apply, even_at, val_main_v2_apply, split_at,
      val_main_v6_apply, member_at', val_main_v5_apply, odd_at, val_main_v2_apply, split_at,
      val_main_v10_apply, val_main_v9_apply, val_main_v7_apply, cos_at,
      val_main_v13_apply, val_main_v12_apply, val_main_v8_apply, sin_at]
    exact (rot_even x (Host.cos (F := Ideal) (φ := .f32) a) (Host.sin (F := Ideal) (φ := .f32) a) b s r ri).symm
  · have hp1 : par = (1 : Fin 2) := Fin.ext (by have := par.isLt; show par.val = 1; omega)
    subst hp1
    refine (concatenate_pair_apply_right (t := S8x2048x1024x2x2) (s₁ := S8x2048x1024x1x2) (s₂ := S8x2048x1024x1x2) (3 : Fin 5) _ _ _ (ix5 b s r (1 : Fin 2) ri) rfl rfl (ix5 b s r (0 : Fin 1) ri) (fun b' => match b' with
      | ⟨0, _⟩ => fun _ => rfl | ⟨1, _⟩ => fun _ => rfl | ⟨2, _⟩ => fun _ => rfl
      | ⟨3, _⟩ => fun hne => absurd rfl hne | ⟨4, _⟩ => fun _ => rfl) rfl).trans ?_
    rw [val_main_v24_apply, stack_at', val_main_v22_apply, val_main_v18_apply, val_main_v21_apply,
      val_main_v4_apply, member_at, val_main_v3_apply, even_at, val_main_v2_apply, split_at,
      val_main_v6_apply, member_at', val_main_v5_apply, odd_at, val_main_v2_apply, split_at,
      val_main_v17_apply, val_main_v16_apply, val_main_v8_apply, sin_at',
      val_main_v20_apply, val_main_v19_apply, val_main_v7_apply, cos_at']
    exact (rot_odd x (Host.cos (F := Ideal) (φ := .f32) a) (Host.sin (F := Ideal) (φ := .f32) a) b s r ri).symm

end Cert.ReferenceIdeal.RefValue

end
-- ==== Proof.KerBody.lean ====
/-
  The kernel body at one index of its block.

  The body works on a block of 256 rows × 4096 lanes; a lane is a flattened (channel, re/im) position. It forms
      x · c  +  x rolled down two lanes · s_r  +  x rolled up two lanes · s_l
  where c, s_r, s_l are single rows broadcast down the block. A roll by 4094 of 4096 lanes reads, at lane q, lane
  (q + 2) mod 4096; a roll by 2 reads lane (q + 4094) mod 4096, that is (q − 2) mod 4096. `pay_at` is that reading at the
  index (p, q); `outAt` is the same expression over whole arrays of 16384 rows, which every block is a restriction of
  because the rolls stay inside a row.
-/
import proofs.«407569_j21096879358600_3_alg».proof.Proof.Gen.KernelIdeal.Skeleton
import Idealize.ShloMosaic.Lib.Pipeline.Value
import Idealize.ShloMosaic.Lib.ValueIdx
import Idealize.ShloMosaic.Lib.ValueLayout
import Idealize.ShloMosaic.Lib.KernelVsHost

noncomputable section

namespace Cert.KernelIdeal.Body

open Cert.KernelIdeal Cert.KernelIdeal.Gen
open Idealize.ShloMosaic Idealize.ShloMosaic.ValueIdx

/-- Two lanes up, around the end of the row. -/
def laneUp (q : Fin 4096) : Fin 4096 := ⟨(q.val + 2) % 4096, Nat.mod_lt _ (by decide)⟩
/-- Two lanes down, around the start of the row. -/
def laneDown (q : Fin 4096) : Fin 4096 := ⟨(q.val + 4094) % 4096, Nat.mod_lt _ (by decide)⟩

/-- The three-term expression at row `R`, lane `q`, over arrays of `n` rows and one-row coefficient arrays. -/
def outAt {n : Nat} (X : (⟨2, ![n, 4096]⟩ : Shape).Idx → EReal) (C SR SL : (⟨2, ![1, 4096]⟩ : Shape).Idx → EReal)
    (R : Fin n) (q : Fin 4096) : EReal :=
  X (ix2 R q) * C (ix2 (0 : Fin 1) q) + X (ix2 R (laneUp q)) * SR (ix2 (0 : Fin 1) q)
    + X (ix2 R (laneDown q)) * SL (ix2 (0 : Fin 1) q)

/-- The expression depends on its arrays only through one row of the first and the lane's entry of the others. -/
theorem outAt_congr {n n' : Nat} {X : (⟨2, ![n, 4096]⟩ : Shape).Idx → EReal} {X' : (⟨2, ![n', 4096]⟩ : Shape).Idx → EReal}
    {C SR SL C' SR' SL' : (⟨2, ![1, 4096]⟩ : Shape).Idx → EReal} {R : Fin n} {R' : Fin n'} {q : Fin 4096}
    (hx : ∀ q' : Fin 4096, X (ix2 R q') = X' (ix2 R' q')) (hc : C (ix2 (0 : Fin 1) q) = C' (ix2 (0 : Fin 1) q))
    (hsr : SR (ix2 (0 : Fin 1) q) = SR' (ix2 (0 : Fin 1) q)) (hsl : SL (ix2 (0 : Fin 1) q) = SL' (ix2 (0 : Fin 1) q)) :
    outAt X C SR SL R q = outAt X' C' SR' SL' R' q := by
  unfold outAt
  rw [hx, hx, hx, hc, hsr, hsl]

/-- The roll by 4094 read at (p, q): the operand two lanes up. -/
theorem rollUp_at (h : S256x4096.Rotates 1 none) (x : FVec Ideal S256x4096 .f32) (p : Fin 256) (q : Fin 4096) :
    dynamicRotate 1 4094#32 none x h (ix2 p q) = x (ix2 p (laneUp q)) :=
  dynamicRotate_apply (1 : Fin 2) 4094#32 x h (ix2 p q) (ix2 p (laneUp q)) fun b => by
    have hq : q.val < 4096 := q.isLt
    by_cases hb : b = 1
    · subst hb
      rw [if_pos rfl]
      show (q.val + 2) % 4096 = (q.val + 4096 - 4094 % 4096) % 4096
      omega
    · rw [if_neg hb]
      match b, hb with
      | ⟨0, _⟩, _ => rfl
      | ⟨1, _⟩, hb => exact absurd (Fin.ext rfl) hb

/-- The roll by 2 read at (p, q): the operand two lanes down. -/
theorem rollDown_at (h : S256x4096.Rotates 1 none) (x : FVec Ideal S256x4096 .f32) (p : Fin 256) (q : Fin 4096) :
    dynamicRotate 1 2#32 none x h (ix2 p q) = x (ix2 p (laneDown q)) :=
  dynamicRotate_apply (1 : Fin 2) 2#32 x h (ix2 p q) (ix2 p (laneDown q)) fun b => by
    have hq : q.val < 4096 := q.isLt
    by_cases hb : b = 1
    · subst hb
      rw [if_pos rfl]
      show (q.val + 4094) % 4096 = (q.val + 4096 - 2 % 4096) % 4096
      omega
    · rw [if_neg hb]
      match b, hb with
      | ⟨0, _⟩, _ => rfl
      | ⟨1, _⟩, hb => exact absurd (Fin.ext rfl) hb

/-- The body's stored value at (p, q) of its block. -/
theorem pay_at (x0 : Vec Ideal S256x4096 .f32) (x1 x2 x3 : Vec Ideal S1x4096 .f32) (p : Fin 256) (q : Fin 4096) :
    k0_pay1 (F := Ideal) x0 x1 x2 x3 (ix2 p q) = outAt x0 x1 x2 x3 p q := by
  unfold k0_pay1 outAt
  simp only [addf_apply, mulf_apply, shapeCast_self, broadcastTo_1b_ab_apply]
  rw [rollUp_at _ x0 p q, rollDown_at _ x0 p q]

end Cert.KernelIdeal.Body

end
-- ==== Proof.KerRows.lean ====
/-
  The arrays the kernel's region works on, read at explicit coordinates.

  A ROW is the pair of leading indices (b, s) flattened, `b · 2048 + s`; a LANE is (pair r, member par, entry ri)
  flattened, `4 r + 2 par + ri` — the position of channel `2 r + par`, entry `ri`, in a row of 4096. Flattening the
  argument to rows × lanes and unflattening the result are the same bijection of row-major positions.

  The three coefficient rows are built on the host from 1024-entry vectors and 4-entry patterns: a vector repeated four
  times along the lanes reads, at lane (r, par, ri), its entry r; a pattern tiled 1024 times reads its entry
  `2 par + ri`; their product is the product of the two readings.
-/
import proofs.«407569_j21096879358600_3_alg».proof.Proof.Gen.KernelIdeal
import proofs.«407569_j21096879358600_3_alg».proof.Proof.Rotation
import proofs.«407569_j21096879358600_3_alg».proof.Proof.KerBody
import Idealize.ShloMosaic.Lib.Pipeline.Value
import Idealize.ShloMosaic.Lib.ValueIdx
import Idealize.ShloMosaic.Lib.ValueLayout

noncomputable section

namespace Cert.KernelIdeal.Rows

open Cert.KernelIdeal Cert.KernelIdeal.Body Cert.Rotation
open Idealize.ShloMosaic Idealize.ShloMosaic.ValueIdx

/-- Leading indices (b, s) as a row of the flattened array. -/
def row (b : Fin 8) (s : Fin 2048) : Fin 16384 :=
  ⟨b.val * 2048 + s.val, by have := b.isLt; have := s.isLt; omega⟩

/-- Pair, member and entry as a lane of a row. -/
def lane (r : Fin 1024) (par ri : Fin 2) : Fin 4096 :=
  ⟨4 * r.val + 2 * par.val + ri.val, by have := r.isLt; have := par.isLt; have := ri.isLt; omega⟩

/-- Member and entry as a position in a 4-entry pattern. -/
def quad (par ri : Fin 2) : Fin 4 := ⟨2 * par.val + ri.val, by have := par.isLt; have := ri.isLt; omega⟩

variable (b : Fin 8) (s : Fin 2048) (r : Fin 1024) (par ri : Fin 2)

/-- Every row is some (b, s). -/
theorem row_surj (R : Fin 16384) : ∃ (b : Fin 8) (s : Fin 2048), R = row b s :=
  ⟨⟨R.val / 2048, by have := R.isLt; omega⟩, ⟨R.val % 2048, Nat.mod_lt _ (by decide)⟩,
    Fin.ext (by show R.val = R.val / 2048 * 2048 + R.val % 2048; omega)⟩

/-- Two lanes up from an even member is the odd member of the same pair. -/
theorem laneUp_even : laneUp (lane r 0 ri) = lane r 1 ri :=
  Fin.ext (by
    have := r.isLt; have := ri.isLt
    show (4 * r.val + 2 * 0 + ri.val + 2) % 4096 = 4 * r.val + 2 * 1 + ri.val
    omega)

/-- Two lanes down from an odd member is the even member of the same pair. -/
theorem laneDown_odd : laneDown (lane r 1 ri) = lane r 0 ri :=
  Fin.ext (by
    have := r.isLt; have := ri.isLt
    show (4 * r.val + 2 * 1 + ri.val + 4094) % 4096 = 4 * r.val + 2 * 0 + ri.val
    omega)

/-! ## Flattening and unflattening -/

/-- The argument flattened to rows × lanes, at row (b, s) and lane (r, par, ri). -/
theorem flat_at (x : S8x2048x2048x2.Idx → EReal) (h : S8x2048x2048x2.ShapeCasts S16384x4096) :
    shapeCast S16384x4096 x h (ix2 (row b s) (lane r par ri)) = x (ix4 b s (chan r par) ri) :=
  shapeCast_apply x h _ _ (by
    rw [Shape.rowMajor_val_four, Shape.rowMajor_val_two]
    show ((b.val * 2048 + s.val) * 2048 + (2 * r.val + par.val)) * 2 + ri.val
      = (b.val * 2048 + s.val) * 4096 + (4 * r.val + 2 * par.val + ri.val)
    omega)

/-- Rows × lanes unflattened, at (b, s, channel 2 r + par, ri). -/
theorem unflat_at (y : S16384x4096.Idx → EReal) (h : S16384x4096.ShapeCasts S8x2048x2048x2) :
    shapeCast S8x2048x2048x2 y h (ix4 b s (chan r par) ri) = y (ix2 (row b s) (lane r par ri)) :=
  shapeCast_apply y h _ _ (by
    rw [Shape.rowMajor_val_four, Shape.rowMajor_val_two]
    show (b.val * 2048 + s.val) * 4096 + (4 * r.val + 2 * par.val + ri.val)
      = ((b.val * 2048 + s.val) * 2048 + (2 * r.val + par.val)) * 2 + ri.val
    omega)

/-! ## The coefficient rows -/

/-- A 1024-entry vector repeated four times along the lanes reads its entry `r` at lane (r, par, ri). -/
theorem rep4_at (v : S1024.Idx → EReal) (h1 : S1024.BroadcastsInDim S1024x4 (![0] : Fin 1 → Fin S1024x4.rank))
    (h2 : S1024x4.ShapeCasts S4096) :
    shapeCast S4096 (broadcastInDim S1024x4 ![0] h1 v) h2 (ix1 (lane r par ri)) = v (ix1 r) := by
  refine (shapeCast_apply _ h2 (ix1 (lane r par ri)) (ix2 r (quad par ri)) ?_).trans ?_
  · rw [Shape.rowMajor_val_two, Shape.rowMajor_val_one]
    show r.val * 4 + (2 * par.val + ri.val) = 4 * r.val + 2 * par.val + ri.val
    omega
  · exact broadcastInDim_apply _ h1 v (ix2 r (quad par ri)) (ix1 r) (fun a => match a with
      | ⟨0, _⟩ => by show r.val = if (1024 : Nat) = 1 then 0 else r.val; rw [if_neg (by decide)])

/-- A 4-entry pattern tiled 1024 times along the lanes reads its entry `2 par + ri` at lane (r, par, ri). -/
theorem tile4_at (u : S4.Idx → EReal) (h0 : S4.ShapeCasts S1x4)
    (h1 : S1x4.BroadcastsInDim S1024x4 (![0, 1] : Fin 2 → Fin S1024x4.rank)) (h2 : S1024x4.ShapeCasts S4096) :
    shapeCast S4096 (broadcastInDim S1024x4 ![0, 1] h1 (shapeCast S1x4 u h0)) h2 (ix1 (lane r par ri))
      = u (ix1 (quad par ri)) := by
  refine (shapeCast_apply _ h2 (ix1 (lane r par ri)) (ix2 r (quad par ri)) ?_).trans ?_
  · rw [Shape.rowMajor_val_two, Shape.rowMajor_val_one]
    show r.val * 4 + (2 * par.val + ri.val) = 4 * r.val + 2 * par.val + ri.val
    omega
  · refine (broadcastInDim_apply _ h1 _ (ix2 r (quad par ri)) (ix2 (0 : Fin 1) (quad par ri)) (fun a => match a with
      | ⟨0, _⟩ => by show 0 = if (1 : Nat) = 1 then 0 else r.val; rw [if_pos rfl]
      | ⟨1, _⟩ => by show (quad par ri).val = if (4 : Nat) = 1 then 0 else (quad par ri).val; rw [if_neg (by decide)])).trans ?_
    exact shapeCast_a_1a_apply u h0 (0 : Fin 1) (quad par ri)

/-- The cosine row at lane (r, par, ri): entry `r`. -/
theorem cosRow_at (v : S1024.Idx → EReal) (h1 : S1024.BroadcastsInDim S1024x4 (![0] : Fin 1 → Fin S1024x4.rank))
    (h2 : S1024x4.ShapeCasts S4096) (h3 : S4096.ShapeCasts S1x4096) :
    shapeCast S1x4096 (shapeCast S4096 (broadcastInDim S1024x4 ![0] h1 v) h2) h3 (ix2 (0 : Fin 1) (lane r par ri)) = v (ix1 r) :=
  (shapeCast_a_1a_apply _ h3 (0 : Fin 1) (lane r par ri)).trans (rep4_at r par ri v h1 h2)

/-- A masked sine row at lane (r, par, ri): the pattern's entry `2 par + ri` times the vector's entry `r`. -/
theorem maskRow_at (u : S4.Idx → EReal) (v : S1024.Idx → EReal) (h0 : S4.ShapeCasts S1x4)
    (hb : S1x4.BroadcastsInDim S1024x4 (![0, 1] : Fin 2 → Fin S1024x4.rank))
    (h1 : S1024.BroadcastsInDim S1024x4 (![0] : Fin 1 → Fin S1024x4.rank))
    (h2 : S1024x4.ShapeCasts S4096) (h3 : S4096.ShapeCasts S1x4096) :
    shapeCast S1x4096 (mulf (F := Ideal) (φ := .f32) (shapeCast S4096 (broadcastInDim S1024x4 ![0, 1] hb (shapeCast S1x4 u h0)) h2)
        (shapeCast S4096 (broadcastInDim S1024x4 ![0] h1 v) h2)) h3 (ix2 (0 : Fin 1) (lane r par ri))
      = u (ix1 (quad par ri)) * v (ix1 r) := by
  refine (shapeCast_a_1a_apply _ h3 (0 : Fin 1) (lane r par ri)).trans ?_
  rw [mulf_apply, tile4_at r par ri u h0 hb h2, rep4_at r par ri v h1 h2]

/-! ## The two patterns -/

/-- The first pattern is -1 on an even member, -/
theorem lit0_even : lit0 (S4.rowMajor (ix1 (quad 0 ri))) = 0xBF800000#32 := by
  match ri with
  | ⟨0, _⟩ => rfl
  | ⟨1, _⟩ => rfl
/-- and 0 on an odd one. -/
theorem lit0_odd : lit0 (S4.rowMajor (ix1 (quad 1 ri))) = 0x00000000#32 := by
  match ri with
  | ⟨0, _⟩ => rfl
  | ⟨1, _⟩ => rfl
/-- The second pattern is 0 on an even member, -/
theorem lit1_even : lit1 (S4.rowMajor (ix1 (quad 0 ri))) = 0x00000000#32 := by
  match ri with
  | ⟨0, _⟩ => rfl
  | ⟨1, _⟩ => rfl
/-- and 1 on an odd one. -/
theorem lit1_odd : lit1 (S4.rowMajor (ix1 (quad 1 ri))) = 0x3F800000#32 := by
  match ri with
  | ⟨0, _⟩ => rfl
  | ⟨1, _⟩ => rfl

end Cert.KernelIdeal.Rows

end
-- ==== Proof.KerValue.lean ====
/-
  The kernel's result array is the rotation.

  The region runs over 64 grid points; point t works on rows 256 t … 256 t + 255 of the flattened argument and writes
  the same rows of the output, the three coefficient rows being the same one-row arrays at every point. What a point
  writes back is therefore its block of ONE whole-array function, `outArr`: the three-term expression of
  Proof/KerBody.lean over the arrays as the region finds them. The blocks tile the output, so the output array ends as
  `outArr`; the one host operation after the region unflattens it.

  Read at (b, s, channel 2 r + par, ri) — row (b, s), lane (r, par, ri) — the three terms are: the argument there times
  cos r; the argument two lanes up times (pattern₀ · sin r); the argument two lanes down times (pattern₁ · sin r). On
  an even member pattern₀ is −1 and pattern₁ is 0, and two lanes up is the odd member of the same pair; on an odd member
  pattern₀ is 0 and pattern₁ is 1, and two lanes down is the even member. The term whose pattern entry is 0 vanishes
  whatever lane it reads, which is why the wrap-around of the rolls never matters. What is left is the rotation.
-/
import proofs.«407569_j21096879358600_3_alg».proof.Proof.Gen.KernelIdeal.Frame
import proofs.«407569_j21096879358600_3_alg».proof.Proof.Rotation
import proofs.«407569_j21096879358600_3_alg».proof.Proof.KerBody
import proofs.«407569_j21096879358600_3_alg».proof.Proof.KerRows
import Idealize.ShloMosaic.Lib.Pipeline.Value
import Idealize.ShloMosaic.Lib.ValueIdx
import Idealize.ShloMosaic.Lib.StableHlo.Run

set_option maxRecDepth 16384

noncomputable section

namespace Cert.KernelIdeal.KerValue

open Cert.KernelIdeal Cert.KernelIdeal.Gen Cert.KernelIdeal.Body Cert.KernelIdeal.Rows Cert.Rotation
open Idealize.ShloMosaic Idealize.ShloMosaic.ValueIdx Idealize.ShloMosaic.TcCoe Idealize.SL.Sem
open Idealize.ShloMosaic.Pipeline (Dat Cfg Window)

variable (m : (ℓ : Loc nD τ sig) → Buf (Elt Ideal) ℓ) (ρ : Dev nD → PrngReg)

/-! ## The arrays as the region finds them -/

/-- The two argument arrays as launched. -/
abbrev argX (c : Dev nD) : Vec Ideal S8x2048x2048x2 .f32 := m ((c : Thread nD τ).loc main_arg0)
abbrev argA (c : Dev nD) : Vec Ideal S1024 .f32 := m ((c : Thread nD τ).loc main_arg1)

/-- The flattened argument and the three coefficient rows, at the region's entry. -/
abbrev xarr (c : Dev nD) : Vec Ideal S16384x4096 .f32 := V m c main_v14
abbrev carr (c : Dev nD) : Vec Ideal S1x4096 .f32 := V m c main_v15
abbrev srarr (c : Dev nD) : Vec Ideal S1x4096 .f32 := V m c main_v16
abbrev slarr (c : Dev nD) : Vec Ideal S1x4096 .f32 := V m c main_v17

theorem xarr_eq (c : Dev nD) :
    xarr m c = shapeCast S16384x4096 (argX m c) Facts₀.shapeCasts_S8x2048x2048x2_S16384x4096 := by
  show StableHlo.after hostOps0 (fun b => m (c, b)) (Proc.devRef .tc main_v14) = _
  after_results; rfl

theorem carr_eq (c : Dev nD) :
    carr m c = shapeCast S1x4096 (shapeCast S4096 (broadcastInDim S1024x4 ![0] Facts₀.bcast_S1024_S1024x4_0
      (Host.cos (F := Ideal) (φ := .f32) (argA m c))) Facts₀.shapeCasts_S1024x4_S4096) Facts₀.shapeCasts_S4096_S1x4096 := by
  show StableHlo.after hostOps0 (fun b => m (c, b)) (Proc.devRef .tc main_v15) = _
  after_results; rfl

theorem srarr_eq (c : Dev nD) :
    srarr m c = shapeCast S1x4096 (mulf (F := Ideal) (φ := .f32)
      (shapeCast S4096 (broadcastInDim S1024x4 ![0, 1] Facts₀.bcast_S1x4_S1024x4_0_1
        (shapeCast S1x4 (fun i => FloatOps.ofBits (F := Ideal) .f32 (lit0 (S4.rowMajor i))) Facts₀.shapeCasts_S4_S1x4))
        Facts₀.shapeCasts_S1024x4_S4096)
      (shapeCast S4096 (broadcastInDim S1024x4 ![0] Facts₀.bcast_S1024_S1024x4_0
        (Host.sin (F := Ideal) (φ := .f32) (argA m c))) Facts₀.shapeCasts_S1024x4_S4096)) Facts₀.shapeCasts_S4096_S1x4096 := by
  show StableHlo.after hostOps0 (fun b => m (c, b)) (Proc.devRef .tc main_v16) = _
  after_results; rfl

theorem slarr_eq (c : Dev nD) :
    slarr m c = shapeCast S1x4096 (mulf (F := Ideal) (φ := .f32)
      (shapeCast S4096 (broadcastInDim S1024x4 ![0, 1] Facts₀.bcast_S1x4_S1024x4_0_1
        (shapeCast S1x4 (fun i => FloatOps.ofBits (F := Ideal) .f32 (lit1 (S4.rowMajor i))) Facts₀.shapeCasts_S4_S1x4))
        Facts₀.shapeCasts_S1024x4_S4096)
      (shapeCast S4096 (broadcastInDim S1024x4 ![0] Facts₀.bcast_S1024_S1024x4_0
        (Host.sin (F := Ideal) (φ := .f32) (argA m c))) Facts₀.shapeCasts_S1024x4_S4096)) Facts₀.shapeCasts_S4096_S1x4096 := by
  show StableHlo.after hostOps0 (fun b => m (c, b)) (Proc.devRef .tc main_v17) = _
  after_results; rfl

/-! ## The same arrays at row (b, s) and lane (r, par, ri) -/

variable (b : Fin 8) (s : Fin 2048) (r : Fin 1024) (par ri : Fin 2)

theorem xarr_at (c : Dev nD) : xarr m c (ix2 (row b s) (lane r par ri)) = argX m c (ix4 b s (chan r par) ri) := by
  rw [xarr_eq]; exact flat_at b s r par ri _ _

theorem carr_at (c : Dev nD) :
    carr m c (ix2 (0 : Fin 1) (lane r par ri)) = Host.cos (F := Ideal) (φ := .f32) (argA m c) (ix1 r) := by
  rw [carr_eq]; exact cosRow_at r par ri _ _ _ _

theorem srarr_at (c : Dev nD) :
    srarr m c (ix2 (0 : Fin 1) (lane r par ri))
      = Ideal.ofBits .f32 (lit0 (S4.rowMajor (ix1 (quad par ri)))) * Host.sin (F := Ideal) (φ := .f32) (argA m c) (ix1 r) := by
  rw [srarr_eq]; exact maskRow_at r par ri _ _ _ _ _ _ _

theorem slarr_at (c : Dev nD) :
    slarr m c (ix2 (0 : Fin 1) (lane r par ri))
      = Ideal.ofBits .f32 (lit1 (S4.rowMajor (ix1 (quad par ri)))) * Host.sin (F := Ideal) (φ := .f32) (argA m c) (ix1 r) := by
  rw [slarr_eq]; exact maskRow_at r par ri _ _ _ _ _ _ _

/-! ## One whole-array function, and what a point writes back -/

/-- The output array as one function of the arrays the region finds. -/
def outArr (X : Vec Ideal S16384x4096 .f32) (C SR SL : Vec Ideal S1x4096 .f32) : Vec Ideal S16384x4096 .f32 :=
  fun i => outAt X C SR SL (i 0) (i 1)

theorem hz : (![0, 0] : Fin 2 → Nat) = fun _ => 0 := funext fun a => by fin_cases a <;> rfl

theorem tN (t : Fin cfg0.N) : t.val < 64 := Nat.lt_of_lt_of_eq t.isLt N_0

/-- Row `p` of point `t`'s block, as a row of the array. -/
def rowOf (t : Fin cfg0.N) (p : Fin 256) : Fin 16384 :=
  ⟨t.val * 256 + p.val, by have := tN t; have := p.isLt; omega⟩

/-- The printed index maps, decided over the 64 points: the argument's and the output's block index is the point, the
    coefficient rows' is zero. -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0 :=
  (by decide +kernel : ∀ t : Fin grid0.N, _)

/-- The four input blocks at a point, at their literal types. -/
abbrev xblk (c : Dev nD) (t : Fin cfg0.N) : Vec Ideal S256x4096 .f32 := iblk m c 0 t
abbrev cblk (c : Dev nD) (t : Fin cfg0.N) : Vec Ideal S1x4096 .f32 := iblk m c 1 t
abbrev srblk (c : Dev nD) (t : Fin cfg0.N) : Vec Ideal S1x4096 .f32 := iblk m c 2 t
abbrev slblk (c : Dev nD) (t : Fin cfg0.N) : Vec Ideal S1x4096 .f32 := iblk m c 3 t

/-- The argument's block at point `t` is rows 256 t … of the flattened argument. -/
theorem xblk_at (c : Dev nD) (t : Fin cfg0.N) (p : Fin 256) (q : Fin 4096) :
    xblk m c t (ix2 p q) = xarr m c (ix2 (rowOf t p) q) := by
  obtain ⟨e0, e1, -⟩ := idx_facts t
  show V m c main_v14 (((cfg0.win 0).blk t).view.emb (ix2 p q)) = V m c main_v14 (ix2 (rowOf t p) q)
  refine congrArg (V m c main_v14) (funext fun a => Fin.ext ?_)
  match a with
  | ⟨0, _⟩ => show win0_0.index t (0 : Fin 2) * 256 + 1 * p.val = t.val * 256 + p.val; omega
  | ⟨1, _⟩ => show win0_0.index t (1 : Fin 2) * 4096 + 1 * q.val = q.val; omega

/-- Each coefficient row's block is the row itself. -/
theorem cblk_at (c : Dev nD) (t : Fin cfg0.N) (q : Fin 4096) :
    cblk m c t (ix2 (0 : Fin 1) q) = carr m c (ix2 (0 : Fin 1) q) := by
  obtain ⟨-, -, e2, e3, -⟩ := idx_facts t
  show V m c main_v15 (((cfg0.win 1).blk t).view.emb (ix2 (0 : Fin 1) q)) = V m c main_v15 (ix2 (0 : Fin 1) q)
  refine congrArg (V m c main_v15) (funext fun a => Fin.ext ?_)
  match a with
  | ⟨0, _⟩ => show win0_1.index t (0 : Fin 2) * 1 + 1 * 0 = 0; omega
  | ⟨1, _⟩ => show win0_1.index t (1 : Fin 2) * 4096 + 1 * q.val = q.val; omega

theorem srblk_at (c : Dev nD) (t : Fin cfg0.N) (q : Fin 4096) :
    srblk m c t (ix2 (0 : Fin 1) q) = srarr m c (ix2 (0 : Fin 1) q) := by
  obtain ⟨-, -, -, -, e4, e5, -⟩ := idx_facts t
  show V m c main_v16 (((cfg0.win 2).blk t).view.emb (ix2 (0 : Fin 1) q)) = V m c main_v16 (ix2 (0 : Fin 1) q)
  refine congrArg (V m c main_v16) (funext fun a => Fin.ext ?_)
  match a with
  | ⟨0, _⟩ => show win0_2.index t (0 : Fin 2) * 1 + 1 * 0 = 0; omega
  | ⟨1, _⟩ => show win0_2.index t (1 : Fin 2) * 4096 + 1 * q.val = q.val; omega

theorem slblk_at (c : Dev nD) (t : Fin cfg0.N) (q : Fin 4096) :
    slblk m c t (ix2 (0 : Fin 1) q) = slarr m c (ix2 (0 : Fin 1) q) := by
  obtain ⟨-, -, -, -, -, -, e6, e7, -⟩ := idx_facts t
  show V m c main_v17 (((cfg0.win 3).blk t).view.emb (ix2 (0 : Fin 1) q)) = V m c main_v17 (ix2 (0 : Fin 1) q)
  refine congrArg (V m c main_v17) (funext fun a => Fin.ext ?_)
  match a with
  | ⟨0, _⟩ => show win0_3.index t (0 : Fin 2) * 1 + 1 * 0 = 0; omega
  | ⟨1, _⟩ => show win0_3.index t (1 : Fin 2) * 4096 + 1 * q.val = q.val; omega

/-- WHAT POINT `t` WRITES BACK is block `t` of `outArr` of the arrays the region finds. -/
theorem flushed_eq (c : Dev nD) (t : Fin cfg0.N) :
    (dats m 0 c).flushed 4 t
      = ((cfg0.win 4).blk t).view.read (Elt Ideal) (outArr (xarr m c) (carr m c) (srarr m c) (slarr m c)) := by
  show (cfg0.win 4).cut (grid0.coords t) ((dats m 0 c).after 4 t) = _
  rw [after0_4]
  unfold out0_4
  rw [View.canon_unit_zero hz]
  simp only [View.ld_unit_zero (S := S256x4096) hz, View.ld_unit_zero (S := S1x4096) hz]
  obtain ⟨-, -, -, -, -, -, -, -, e8, e9⟩ := idx_facts t
  funext j
  have hj0 : (j 0).val < 256 := (j 0).isLt
  have hj1 : (j 1).val < 4096 := (j 1).isLt
  have ej : (cfg0.win 4).xinj (grid0.coords t) j = ix2 (⟨(j 0).val, hj0⟩ : Fin 256) (⟨(j 1).val, hj1⟩ : Fin 4096) := by
    funext a
    match a with
    | ⟨0, _⟩ => rfl
    | ⟨1, _⟩ => rfl
  have ee : ((cfg0.win 4).blk t).view.emb j = ix2 (rowOf t ⟨(j 0).val, hj0⟩) (⟨(j 1).val, hj1⟩ : Fin 4096) := by
    funext a; apply Fin.ext
    match a with
    | ⟨0, _⟩ => show win0_4.index t (0 : Fin 2) * 256 + 1 * (j 0).val = t.val * 256 + (j 0).val; omega
    | ⟨1, _⟩ => show win0_4.index t (1 : Fin 2) * 4096 + 1 * (j 1).val = (j 1).val; omega
  show k0_pay1 (F := Ideal) (xblk m c t) (cblk m c t) (srblk m c t) (slblk m c t) ((cfg0.win 4).xinj (grid0.coords t) j)
    = outArr (xarr m c) (carr m c) (srarr m c) (slarr m c) (((cfg0.win 4).blk t).view.emb j)
  rw [ej, ee]
  refine (pay_at (xblk m c t) (cblk m c t) (srblk m c t) (slblk m c t) _ _).trans ?_
  exact outAt_congr (fun q' => xblk_at m c t _ q') (cblk_at m c t _) (srblk_at m c t _) (slblk_at m c t _)

/-- An index of the array is in point `t`'s block iff each coordinate is in the block's range on its axis. -/
theorem mem_blk (t : Fin cfg0.N) (i : S16384x4096.Idx) :
    i ∈ ((cfg0.win 4).blk t).view.set ↔ ∀ a : Fin 2, win0_4.index t a * S256x4096.size a ≤ (i a).val
      ∧ (i a).val < win0_4.index t a * S256x4096.size a + S256x4096.size a := by
  show i ∈ ((View.whole main_v18).slice (win0_4.rect t)).set ↔ _
  rw [View.set_slice_whole, Rect.mem_set_unit]
  exact Iff.rfl

/-- The blocks tile the output: row R is in the block of point R / 256. -/
theorem cover (i : S16384x4096.Idx) :
    ∃ t : Fin cfg0.N, (cfg0.win 4).flush t = true ∧ i ∈ ((cfg0.win 4).blk t).view.set := by
  have hi0 : (i 0).val < 16384 := (i 0).isLt
  have hi1 : (i 1).val < 4096 := (i 1).isLt
  have hlt : (i 0).val / 256 < cfg0.N := Nat.lt_of_lt_of_eq (by omega) N_0.symm
  obtain ⟨-, -, -, -, -, -, -, -, e8, e9⟩ := idx_facts ⟨(i 0).val / 256, hlt⟩
  have e8' : win0_4.index ⟨(i 0).val / 256, hlt⟩ (0 : Fin 2) = (i 0).val / 256 := e8
  refine ⟨⟨(i 0).val / 256, hlt⟩, flush0_4 _, ?_⟩
  rw [mem_blk]
  intro a
  match a with
  | ⟨0, _⟩ =>
    show win0_4.index ⟨(i 0).val / 256, hlt⟩ (0 : Fin 2) * 256 ≤ (i 0).val
      ∧ (i 0).val < win0_4.index ⟨(i 0).val / 256, hlt⟩ (0 : Fin 2) * 256 + 256
    omega
  | ⟨1, _⟩ =>
    show win0_4.index ⟨(i 0).val / 256, hlt⟩ (1 : Fin 2) * 4096 ≤ (i 1).val
      ∧ (i 1).val < win0_4.index ⟨(i 0).val / 256, hlt⟩ (1 : Fin 2) * 4096 + 4096
    omega

/-- THE OUTPUT ARRAY after the run. -/
theorem final (c : Dev nD) :
    (dats m 0 c).arrAt 4 cfg0.N = outArr (xarr m c) (carr m c) (srarr m c) (slarr m c) :=
  (dats m 0 c).arrAt_eq_of_cover 4 _ (fun t _ => flushed_eq m c t) cover

end Cert.KernelIdeal.KerValue

end
-- ==== Proof.KerResult.lean ====
/-
  The kernel's run ends with the rotation in its result buffer.

  The output array of the region is `outArr` (Proof/KerValue.lean); the one host operation after the region unflattens
  it. At (b, s, channel 2 r + par, ri) that is `outArr` at row (b, s), lane (r, par, ri): on an even member
      x[2r]·cos r + x[2r+1]·(−1·sin r) + (whatever lies two lanes down)·(0·sin r)  =  x[2r]·cos r − x[2r+1]·sin r,
  on an odd one
      x[2r+1]·cos r + (whatever lies two lanes up)·(0·sin r) + x[2r]·(1·sin r)  =  x[2r]·sin r + x[2r+1]·cos r,
  the two lines of the rotation (Proof/Rotation.lean).
-/
import proofs.«407569_j21096879358600_3_alg».proof.Proof.KerValue

set_option maxRecDepth 16384

noncomputable section

namespace Cert.KernelIdeal.KerResult

open Cert.KernelIdeal Cert.KernelIdeal.Gen Cert.KernelIdeal.Body Cert.KernelIdeal.Rows Cert.Rotation Cert.KernelIdeal.KerValue
open Idealize.ShloMosaic Idealize.ShloMosaic.ValueIdx Idealize.ShloMosaic.TcCoe Idealize.SL.Sem
open Idealize.ShloMosaic.Pipeline (Dat Cfg Window)

variable (m : (ℓ : Loc nD τ sig) → Buf (Elt Ideal) ℓ) (ρ : Dev nD → PrngReg)

/-- The unflattened output is the rotation of the argument by the host cosine and sine of the angles. -/
theorem unflat_outArr_eq (c : Dev nD) (h : S16384x4096.ShapeCasts S8x2048x2048x2) :
    shapeCast S8x2048x2048x2 (outArr (xarr m c) (carr m c) (srarr m c) (slarr m c)) h
      = rot (argX m c) (Host.cos (F := Ideal) (φ := .f32) (argA m c)) (Host.sin (F := Ideal) (φ := .f32) (argA m c)) := by
  funext i
  obtain ⟨b, s, d, ri, rfl⟩ : ∃ (b : Fin 8) (s : Fin 2048) (d : Fin 2048) (ri : Fin 2), i = ix4 b s d ri :=
    ⟨i 0, i 1, i 2, i 3, eq_ix4 i⟩
  obtain ⟨r, par, rfl⟩ := chan_surj d
  rw [unflat_at]
  show outAt (xarr m c) (carr m c) (srarr m c) (slarr m c) (row b s) (lane r par ri) = _
  unfold outAt
  by_cases hpar : par.val = 0
  · have hp0 : par = (0 : Fin 2) := Fin.ext hpar
    subst hp0
    rw [laneUp_even, xarr_at, xarr_at, carr_at, srarr_at, slarr_at, lit0_even, lit1_even]
    exact (even_form _ _ _ _ _).trans (rot_even _ _ _ b s r ri).symm
  · have hp1 : par = (1 : Fin 2) := Fin.ext (by have := par.isLt; show par.val = 1; omega)
    subst hp1
    rw [laneDown_odd, xarr_at, xarr_at, carr_at, srarr_at, slarr_at, lit0_odd, lit1_odd]
    exact (odd_form _ _ _ _ _).trans (rot_odd _ _ _ b s r ri).symm

/-- The result buffer after the host operation that follows the region: the output array unflattened. -/
theorem tail_eq (c : Dev nD) :
    Pipeline.afterTail₀ cfgs (dats m) 0 (V0 m) [hostOps1] c main_v19
      = shapeCast S8x2048x2048x2 (outArr (xarr m c) (carr m c) (srarr m c) (slarr m c))
          Facts₀.shapeCasts_S16384x4096_S8x2048x2048x2 := by
  have hw : Pipeline.withArrays (cfgs 0).spec c (V0 m c) (fun w => (dats m 0 c).arrAt w (cfgs 0).N) (Proc.devRef .tc main_v18)
      = outArr (xarr m c) (carr m c) (srarr m c) (slarr m c) :=
    (Pipeline.withArrays_arr spec0 launch0.win.arr_inj c _ _ 4).trans (final m c)
  unfold Pipeline.afterTail₀
  show StableHlo.after hostOps1 _ (Proc.devRef .tc main_v19) = _
  after_results
  rw [hw]
  rfl

/-- THE KERNEL'S RUN: every weakly fair execution terminates with the rotation in the result buffer and the
    arguments unchanged. -/
theorem run : θ_run defs (onTc (τ := τ) (main (F := Ideal))) ⟨m, fun _ => 0, ρ⟩ fun r => ∀ c : Dev nD,
      r.2.mem ((c.tc : Thread nD τ).loc main_v19)
        = rot (argX m c) (Host.cos (F := Ideal) (φ := .f32) (argA m c)) (Host.sin (F := Ideal) (φ := .f32) (argA m c))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun r h c =>
    ⟨((h c).2 main_v19 (Pipeline.mem_restRefs_of main_v19 (by decide) (by decide))).trans
        ((tail_eq m c).trans (unflat_outArr_eq m c _)),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c)⟩)
    (run_main m ρ)

end Cert.KernelIdeal.KerResult

end
-- ==== Proof.lean ====
/-
  A block-diagonal Givens rotation of adjacent channel pairs, kernel against reference.

  The argument x has shape [8, 2048, 2048, 2] (batch, position, channel, re/im); for each of the 1024 adjacent channel
  pairs (2r, 2r+1) and the angle θ_r,
      out[2r]   = x[2r]·cos θ_r − x[2r+1]·sin θ_r,      out[2r+1] = x[2r]·sin θ_r + x[2r+1]·cos θ_r,
  identically on every batch, position and re/im entry (Proof/Rotation.lean, `rot`).

  The reference forms exactly these two lines on the host, after splitting the channel axis into pairs and before folding it
  back (Proof/RefValue.lean: its last stage, read index by index through the generated read-at-an-index lemmas, is `rot`).

  The kernel flattens (channel, re/im) into 4096 lanes and computes, per row,
      x·c + (x rolled down two lanes)·s_r + (x rolled up two lanes)·s_l,
  where c repeats each cosine four times and s_r, s_l are the sines masked by the patterns (−1, −1, 0, 0) and (0, 0, 1, 1).
  On each lane exactly one masked term survives and the other is a product with zero, so the sum is one of the two lines above
  (Proof/KerBody.lean: the body at an index; Proof/KerRows.lean: the flattening and the coefficient rows at an index;
  Proof/KerValue.lean: every grid point writes back its block of one whole-array function, and the blocks tile the output;
  Proof/KerResult.lean: the run ends with `rot` in the result buffer). The identities used — products with 0, 1 and −1, and
  commutativity of the sum — hold on all extended reals, so the finiteness of the inputs is never needed for the values.

  Both programs apply the same host cosine and sine to the same angles, so those stay uninterpreted. The ideal pass rewrote
  nothing, so the idealization claim is trivial; the two kernel frames are the generated ones, and the reference's frame is
  its generated run with the result dropped.
-/
import proofs.«407569_j21096879358600_3_alg».proof.Defs
import proofs.«407569_j21096879358600_3_alg».proof.Proof.Gen.Kernel
import proofs.«407569_j21096879358600_3_alg».proof.Proof.Gen.Kernel.Frame
import proofs.«407569_j21096879358600_3_alg».proof.Proof.Gen.KernelIdeal
import proofs.«407569_j21096879358600_3_alg».proof.Proof.Gen.KernelIdeal.Frame
import proofs.«407569_j21096879358600_3_alg».proof.Proof.Gen.ReferenceIdeal
import proofs.«407569_j21096879358600_3_alg».proof.Proof.Gen.Pre_finite_inputs
import proofs.«407569_j21096879358600_3_alg».proof.Proof.Gen.ReferenceIdeal.Run
import proofs.«407569_j21096879358600_3_alg».proof.Proof.Gen.ReferenceIdeal.Read
import proofs.«407569_j21096879358600_3_alg».proof.Proof.Rotation
import proofs.«407569_j21096879358600_3_alg».proof.Proof.RefValue
import proofs.«407569_j21096879358600_3_alg».proof.Proof.KerResult

noncomputable section

namespace Cert.Proof

open Idealize.ShloMosaic Idealize.ShloMosaic.TcCoe Idealize.SL.Sem

/-- The word-level kernel runs and leaves its arguments unchanged. -/
theorem frame_kernel : Cert.frame_Kernel := fun m ρ _ => Cert.Kernel.Gen.frame m ρ

/-- So does the idealized kernel. -/
theorem frame_kernelIdeal : Cert.frame_KernelIdeal := fun m ρ _ => Cert.KernelIdeal.Gen.frame m ρ

/-- The reference has no kernel: its frame is its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The ideal pass rewrote no operation. -/
theorem preserves : Cert.preserves_Kernel_KernelIdeal := trivial

/-- From memories that agree on the arguments both programs end with the rotation of the argument by the host cosine
    and sine of the angles in their result buffers. -/
theorem algebraic : Cert.algebraic_KernelIdeal_ReferenceIdeal := by
  intro m ρ m' ρ' _ hagree
  refine ⟨_, Cert.KernelIdeal.KerResult.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v28_eq, Cert.ReferenceIdeal.RefValue.ref_eq, (hagree c).1, (hagree c).2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
